-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024x4096 : Shape := ⟨3, ![8, 1024, 4096]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x4096 : S_.BroadcastsInDim S8x1024x4096 (![] : Fin 0 → Fin S8x1024x4096.rank)
  reducesTo_S8x1024x4096_S_d0_1_2 : S8x1024x4096.ReducesTo [0, 1, 2] S_

variable [Facts]

def fn_part1 {F : FTy → Type} [FloatOps F] (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  main_v18

def fn {F : FTy → Type} [FloatOps F] (main_arg0 : FVec F S8x4096x1024 .f32) (main_arg1 : FVec F S8x1024x4096 .f32) (main_arg2 : FVec F S8x1024x4096 .f32) (main_arg3 : FVec F S8x4096x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x4096 .f32 := Host.absf main_arg1
  let main_cst_0 : FVec F S_ .f32 := constant S_ .f32 0x7F800000#32
  let main_v5 : FVec F S8x1024x4096 .f32 := broadcastInDim S8x1024x4096 ![] bcast_S_S8x1024x4096 main_cst_0
  let main_v6 : IVec S8x1024x4096 1 := cmpf .olt main_v4 main_v5
  let main_c_1 : IVec S_ 1 := constantI S_ 1 1#1
  let main_v7 : IVec S_ 1 := (fun x v => Host.reduce IntOp.andi x v reducesTo_S8x1024x4096_S_d0_1_2 h_S_) main_v6 main_c_1
  let main_v8 : IVec S_ 1 := andi main_v3 main_v7
  let main_v9 : FVec F S8x1024x4096 .f32 := Host.absf main_arg2
  let main_cst_2 : FVec F S_ .f32 := constant S_ .f32 0x7F800000#32
  let main_v10 : FVec F S8x1024x4096 .f32 := broadcastInDim S8x1024x4096 ![] bcast_S_S8x1024x4096 main_cst_2
  let main_v11 : IVec S8x1024x4096 1 := cmpf .olt main_v9 main_v10
  let main_c_3 : IVec S_ 1 := constantI S_ 1 1#1
  let main_v12 : IVec S_ 1 := (fun x v => Host.reduce IntOp.andi x v reducesTo_S8x1024x4096_S_d0_1_2 h_S_) main_v11 main_c_3
  let main_v13 : IVec S_ 1 := andi main_v8 main_v12
  let main_v14 : FVec F S8x4096x1024 .f32 := Host.absf main_arg3
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_v13 main_v16
-- ==== Kernel.lean ====
abbrev S8x4096x1024 : Shape := ⟨3, ![8, 4096, 1024]⟩
abbrev S8x1024x4096 : Shape := ⟨3, ![8, 1024, 4096]⟩
abbrev S1x512x1024 : Shape := ⟨3, ![1, 512, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 9
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1024x4096, .f32⟩
  | .hbm, ⟨3, _⟩ => ⟨S8x4096x1024, .f32⟩
  | .hbm, ⟨4, _⟩ => ⟨S8x4096x1024, .bf16⟩
  | .hbm, ⟨5, _⟩ => ⟨S8x1024x4096, .bf16⟩
  | .hbm, ⟨6, _⟩ => ⟨S8x1024x4096, .bf16⟩
  | .hbm, ⟨7, _⟩ => ⟨S8x4096x1024, .bf16⟩
  | .hbm, ⟨8, _⟩ => ⟨S8x4096x1024, .f32⟩
  | .local _ .vmem, ⟨0, _⟩ => ⟨S1x512x1024, .bf16⟩
  | .local _ .vmem, ⟨1, _⟩ => ⟨S1x512x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1x1024x1024, .bf16⟩
  | .local _ .vmem, ⟨7, _⟩ => ⟨S1x1024x1024, .bf16⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v23 : BitVec 1 := Scalar.cmpi .eq arg2 c3_i32
  let v24 : BitVec 32 := Scalar.extui v23
  let c0_i32_18 : BitVec 32 := 0#32
  let v25 : BitVec 1 := Scalar.cmpi .ne v24 c0_i32_18
  v25

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S8x4096x1024.size a
  hwx0_0 : ∀ i : grid0.Coords, EltTy.bits .bf16 = 32 ∨ (Rect.block (s := S8x4096x1024) S1x512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x1024x4096.size a
  hwx0_1 : ∀ i : grid0.Coords, EltTy.bits .bf16 = 32 ∨ (Rect.block (s := S8x1024x4096) S1x1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1024.size a ≤ S8x1024x4096.size a
  hwx0_2 : ∀ i : grid0.Coords, EltTy.bits .bf16 = 32 ∨ (Rect.block (s := S8x1024x4096) S1x1024x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x4096x1024.size a
  hwx0_3 : ∀ i : grid0.Coords, EltTy.bits .bf16 = 32 ∨ (Rect.block (s := S8x4096x1024) S1x1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x1024.size a ≤ S8x4096x1024.size a
  hwx0_4 : ∀ i : grid0.Coords, EltTy.bits .f32 = 32 ∨ (Rect.block (s := S8x4096x1024) S1x512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x1024x4096 : Shape := ⟨3, ![8, 1024, 4096]⟩
abbrev S8x4096x4096 : Shape := ⟨3, ![8, 4096, 4096]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024x4096, .f32⟩
  | .hbm, ⟨2, _⟩ => ⟨S8x1024x4096, .f32⟩
  | .hbm, ⟨3, _⟩ => ⟨S8x4096x1024, .f32⟩
  | .hbm, ⟨4, _⟩ => ⟨S8x4096x4096, .f32⟩
  | .hbm, ⟨5, _⟩ => ⟨S8x4096x4096, .f32⟩
  | .hbm, ⟨6, _⟩ => ⟨S8x4096x4096, .f32⟩
  | .hbm, ⟨7, _⟩ => ⟨S_, .f32⟩
  | .hbm, ⟨8, _⟩ => ⟨S8x4096x4096, .f32⟩
  | .hbm, ⟨9, _⟩ => ⟨S8x4096x4096, .f32⟩
  | .hbm, ⟨10, _⟩ => ⟨S_, .f32⟩
  | .hbm, ⟨11, _⟩ => ⟨S8x4096x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩

abbrev nD : Nat := 1
abbrev τ : Topo := Topo.v7x

variable {F : FTy → Type} [FloatOps F]

class Facts₀ : Prop where
  bcast_S_S8x4096x4096 : S_.BroadcastsInDim S8x4096x4096 (![] : Fin 0 → Fin S8x4096x4096.rank)
  dot_S8x4096x1024_S8x1024x4096_S8x4096x4096_2_1_1_2_0_0_wf : DotDims.WF S8x4096x1024 S8x1024x4096 S8x4096x4096 [2] [1] [1] [2] [0] [0]
  dot_S8x4096x4096_S8x4096x1024_S8x4096x1024_2_1_1_2_0_0_wf : DotDims.WF S8x4096x4096 S8x4096x1024 S8x4096x1024 [2] [1] [1] [2] [0] [0]

variable [Facts₀]

def dot_S8x4096x1024_S8x1024x4096_S8x4096x4096_2_1_1_2_0_0 : DotDims S8x4096x1024 S8x1024x4096 S8x4096x4096 where
  lhsContracting := [2]
  rhsContracting := [1]
  lhsNonContracting := [1]
  rhsNonContracting := [2]
  lhsBatch := [0]
  rhsBatch := [0]
  wf := dot_S8x4096x1024_S8x1024x4096_S8x4096x4096_2_1_1_2_0_0_wf
def dot_S8x4096x4096_S8x4096x1024_S8x4096x1024_2_1_1_2_0_0 : DotDims S8x4096x4096 S8x4096x1024 S8x4096x1024 where
  lhsContracting := [2]
  rhsContracting := [1]
  lhsNonContracting := [1]
  rhsNonContracting := [2]
  lhsBatch := [0]
  rhsBatch := [0]
  wf := dot_S8x4096x4096_S8x4096x1024_S8x4096x1024_2_1_1_2_0_0_wf

class Facts : Prop extends Facts₀ where

variable [Facts]
-- ==== Proof.Pieces.lean ====
/-
  What each control case of the body leaves behind, as a function of what it loaded.

  The body has three cases along the hidden-tile axis of the grid. At the first tile it clears the accumulator and
  then accumulates, so it leaves  (cleared accumulator) + addend. At a middle tile it leaves  (what the tile before
  left) + addend. At the last tile it does the same and then copies the accumulator to the output block. Every load
  and store covers its whole buffer, so each case's result is the stored value with the loads replaced by the
  buffers' contents.
-/
import proofs.«149740_j4492535791706_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- First tile: the accumulator is cleared, then the addend goes in. -/
theorem scratch_first (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : cond0_0 i) (hc1 : ¬cond0_1 i)
    (x0 : Vec F S1x512x1024 .bf16) (x1 x2 x3 : Vec F S1x1024x1024 .bf16) :
    sout0_A_0 c i arg3 harg3 arg4 harg4 arg5 harg5 arg6 harg6 arg7 harg7 arg8 harg8 hc0 hc1 x0 x1 x2 x3 = k0_pay2 x0 x1 x2 x3 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) hz2]
  simp only [View.readAt_eq_ld, harg3.read_unread, harg4.read_unread, harg5.read_unread, harg6.read_unread, harg8.read_unread,
    View.ld_unit_zero (S := S1x512x1024) hz3, View.ld_unit_zero (S := S1x1024x1024) hz3, View.ld_unit_zero (S := S512x1024) hz2,
    View.readCov_unit_zero (S := S512x1024) _ hz2]

/-- Middle tile: the addend goes on top of what the tile before left. -/
theorem scratch_middle (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : ¬cond0_1 i)
    (x0 : Vec F S1x512x1024 .bf16) (x1 x2 x3 : Vec F S1x1024x1024 .bf16) (xs0 : Vec F S512x1024 .f32) :
    sout0_B_0 c i arg3 harg3 arg4 harg4 arg5 harg5 arg6 harg6 arg7 harg7 arg8 harg8 hc0 hc1 x0 x1 x2 x3 xs0 = k0_pay2 x0 x1 x2 x3 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  sl_unfold_words
  rw [View.canon_unit_zero hz2]
  simp only [View.readAt_eq_ld, harg3.read_unread, harg4.read_unread, harg5.read_unread, harg6.read_unread, harg8.read_unread,
    View.ld_unit_zero (S := S1x512x1024) hz3, View.ld_unit_zero (S := S1x1024x1024) hz3, View.ld_unit_zero (S := S512x1024) hz2,
    View.readCov_unit_zero (S := S512x1024) _ hz2]

/-- Last tile, the accumulator: as at a middle tile. -/
theorem scratch_last (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : cond0_1 i)
    (x0 : Vec F S1x512x1024 .bf16) (x1 x2 x3 : Vec F S1x1024x1024 .bf16) (xs0 : Vec F S512x1024 .f32) :
    sout0_C_0 c i arg3 harg3 arg4 harg4 arg5 harg5 arg6 harg6 arg7 harg7 arg8 harg8 hc0 hc1 x0 x1 x2 x3 xs0 = k0_pay2 x0 x1 x2 x3 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero hz2]
  simp only [View.readAt_eq_ld, harg3.read_unread, harg4.read_unread, harg5.read_unread, harg6.read_unread, harg8.read_unread,
    View.ld_unit_zero (S := S1x512x1024) hz3, View.ld_unit_zero (S := S1x1024x1024) hz3, View.ld_unit_zero (S := S512x1024) hz2,
    View.readCov_unit_zero (S := S512x1024) _ hz2]

/-- Last tile, the output block: the finished accumulator with a leading unit axis. -/
theorem out_last (c : Dev nD) (i : grid0.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1x1024x1024 .bf16) (harg6 : arg6.IsWhole) (arg7 : Memref sig .tc .vmem S1x512x1024 .f32) (harg7 : arg7.IsWhole) (arg8 : Memref sig .tc .vmem S512x1024 .f32) (harg8 : arg8.IsWhole) (hc0 : ¬cond0_0 i) (hc1 : cond0_1 i)
    (x0 : Vec F S1x512x1024 .bf16) (x1 x2 x3 : Vec F S1x1024x1024 .bf16) (xs0 : Vec F S512x1024 .f32) :
    out0_C_4 c i arg3 harg3 arg4 harg4 arg5 harg5 arg6 harg6 arg7 harg7 arg8 harg8 hc0 hc1 x0 x1 x2 x3 xs0 = k0_pay3 (k0_pay2 x0 x1 x2 x3 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero hz3]
  simp only [View.readAt_eq_ld, harg3.read_unread, harg4.read_unread, harg5.read_unread, harg6.read_unread, harg8.read_unread,
    View.ld_unit_zero (S := S1x512x1024) hz3, View.ld_unit_zero (S := S1x1024x1024) hz3, View.ld_unit_zero (S := S512x1024) hz2,
    View.readCov_unit_zero (S := S512x1024) _ hz2]

end Cert.KernelIdeal.Pieces

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  A gated two-layer perceptron applied per expert, over the extended reals.

  For expert e, token c and hidden unit i the two first-layer products are
      g(e,c,i) = Σ_k x(e,c,k) · Wg(e,k,i)        u(e,c,i) = Σ_k x(e,c,k) · Wu(e,k,i)
  the hidden activation is  silu(g) · u  with  silu(g) = g · σ(g),  σ(g) = 1 / (1 + exp(−g)),  and the result is
      out(e,c,h) = Σ_i (g · σ(g) · u)(e,c,i) · Wd(e,i,h)        (i over all 4096 hidden units).
  The hidden axis is also read in four tiles of 1024 units: the sum over i is the sum over the tiles of the sums
  inside each tile. Only commutativity and associativity of addition are used, so nothing here asks for finiteness.
-/
import Idealize.ShloMosaic.Lib.ValueIdx
import Idealize.ShloMosaic.PureOps.Ideal.Laws
import proofs.«149740_j4492535791706_1_alg».proof.Proof.LibSumBlocks

noncomputable section

open scoped BigOperators

namespace Cert.GatedMlp

open Idealize.ShloMosaic Idealize.ShloMosaic.ValueIdx

/-- Tokens [expert, token, model] and the down weights [expert, hidden, model]. -/
abbrev STok : Shape := ⟨3, ![8, 4096, 1024]⟩
/-- Gate and up weights [expert, model, hidden]. -/
abbrev SWt : Shape := ⟨3, ![8, 1024, 4096]⟩

/-- One hidden activation: silu(g) · u, with silu(g) = g · σ(g). -/
def act (g u : EReal) : EReal := (g * Ideal.logistic g) * u

/-- A first-layer product: row (e, c) of the tokens against column i of expert e's weights. -/
def proj (x : STok.Idx → EReal) (w : SWt.Idx → EReal) (e : Fin 8) (c : Fin 4096) (i : Fin 4096) : EReal :=
  ∑ k : Fin 1024, x (ix3 e c k) * w (ix3 e k i)

/-- The hidden layer at (e, c, i). -/
def hidden (x : STok.Idx → EReal) (wg wu : SWt.Idx → EReal) (e : Fin 8) (c : Fin 4096) (i : Fin 4096) : EReal :=
  act (proj x wg e c i) (proj x wu e c i)

/-- The second-layer product restricted to the hidden units listed by col : the contribution of those units to out(e,c,h). -/
def partialOut (x : STok.Idx → EReal) (wg wu : SWt.Idx → EReal) (wd : STok.Idx → EReal)
    (e : Fin 8) (c : Fin 4096) (h : Fin 1024) {n : Nat} (col : Fin n → Fin 4096) : EReal :=
  ∑ j : Fin n, hidden x wg wu e c (col j) * wd (ix3 e (col j) h)

/-- The whole result. -/
def result (x : STok.Idx → EReal) (wg wu : SWt.Idx → EReal) (wd : STok.Idx → EReal) : STok.Idx → EReal :=
  fun j => ∑ i : Fin 4096, hidden x wg wu (j 0) (j 1) i * wd (ix3 (j 0) i (j 2))

/-- Hidden unit j of tile s. -/
def tileCol (s : Fin 4) (j : Fin 1024) : Fin 4096 := ⟨s.val * 1024 + j.val, by have := s.isLt; have := j.isLt; omega⟩

/-- Token p of token tile b. -/
def tileRow (b : Fin 8) (p : Fin 512) : Fin 4096 := ⟨b.val * 512 + p.val, by have := b.isLt; have := p.isLt; omega⟩

/-- A sum over the 4096 hidden units is the sum over the four tiles of the sums inside each tile. -/
theorem sum_tiles {M : Type*} [AddCommMonoid M] (f : Fin 4096 → M) :
    ∑ s : Fin 4, ∑ j : Fin 1024, f (tileCol s j) = ∑ i : Fin 4096, f i :=
  (Fin.sum_rowMajor2 4 1024 f).symm

/-- The result at (e, c, h) is the sum of the four tiles' contributions. -/
theorem result_eq_tiles (x : STok.Idx → EReal) (wg wu : SWt.Idx → EReal) (wd : STok.Idx → EReal)
    (e : Fin 8) (c : Fin 4096) (h : Fin 1024) :
    result x wg wu wd (ix3 e c h) = ∑ s : Fin 4, partialOut x wg wu wd e c h (tileCol s) := by
  unfold result partialOut
  exact (sum_tiles fun i => hidden x wg wu e c i * wd (ix3 e i h)).symm

end Cert.GatedMlp

end
-- ==== Proof.LibPlainDot.lean ====
/-
  A product of an [M, K] array with a [K, N] array that contracts the left operand's axis 1 against the right
  operand's axis 0 (no batch axis), read at the entry (p, q): the sum over k of left (p, k) times right (k, q).
  Stated once for every dimension record of that kind, so that the kernel's matrix unit into a zero accumulator
  and the host's dot product are both read by instantiating it. With it, the transpose of an [a, b] array read at
  (p, q): the array at (q, p).
-/
import Idealize.ShloMosaic.Lib.ValueIdx
import Idealize.ShloMosaic.Lib.Pipeline.Value
import Idealize.ShloMosaic.PureOps.Ideal.Laws

noncomputable section

open scoped BigOperators

namespace Idealize.ShloMosaic.PlainDot

open Idealize.ShloMosaic Idealize.ShloMosaic.ValueIdx

variable {M K N : Nat} (D : DotDims ⟨2, ![M, K]⟩ ⟨2, ![K, N]⟩ ⟨2, ![M, N]⟩)

/-- The dimension numbers of a plain matrix product: rows of the left operand against columns of the right one. -/
structure IsPlain : Prop where
  lc : D.lhsContracting = [1]
  rc : D.rhsContracting = [0]
  ln : D.lhsNonContracting = [0]
  rn : D.rhsNonContracting = [1]
  lb : D.lhsBatch = []
  rb : D.rhsBatch = []

variable {D}

/-- The contraction runs over one axis … -/
theorem contr_rank (h : IsPlain D) : D.contr.rank = 1 := by
  rw [D.rank_contr, h.lc]; rfl

/-- … whose extent is the shared dimension K. -/
theorem contr_size (h : IsPlain D) : D.contr.size ⟨0, by have := contr_rank h; omega⟩ = K := by
  have h0 : 0 < D.lhsContracting.length := by rw [h.lc]; exact Nat.one_pos
  rw [D.size_contr 0 h0]
  simp [h.lc]

/-- The left operand's row is the result's row. -/
theorem lhs_row (h : IsPlain D) (j : (⟨2, ![M, N]⟩ : Shape).Idx) (q : D.contr.Idx) :
    (D.lhsIdx j q 0).val = (j 0).val := by
  unfold DotDims.lhsIdx
  rw [dif_neg (by rw [h.lb]; exact List.not_mem_nil), dif_pos (by rw [h.ln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln])

/-- The left operand's column is the contraction coordinate. -/
theorem lhs_col (h : IsPlain D) (j : (⟨2, ![M, N]⟩ : Shape).Idx) (q : D.contr.Idx) :
    (D.lhsIdx j q 1).val = (q ⟨0, by have := contr_rank h; omega⟩).val :=
  D.lhsIdx_val_of_single h.lc j q

/-- The right operand's row is the contraction coordinate. -/
theorem rhs_row (h : IsPlain D) (j : (⟨2, ![M, N]⟩ : Shape).Idx) (q : D.contr.Idx) :
    (D.rhsIdx j q 0).val = (q ⟨0, by have := contr_rank h; omega⟩).val :=
  D.rhsIdx_val_of_single h.rc j q

/-- The right operand's column is the result's column. -/
theorem rhs_col (h : IsPlain D) (j : (⟨2, ![M, N]⟩ : Shape).Idx) (q : D.contr.Idx) :
    (D.rhsIdx j q 1).val = (j 1).val := by
  unfold DotDims.rhsIdx
  rw [dif_neg (by rw [h.rb]; exact List.not_mem_nil), dif_pos (by rw [h.rn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb e => by subst e; rfl
  exact key _ _ _ _ (by simp [h.lb, h.ln, h.rn])

/-- The contraction's sum, re-indexed by the shared coordinate k. -/
theorem sum_contr {α : Type*} [AddCommMonoid α] [Mul α] (h : IsPlain D)
    (l : (⟨2, ![M, K]⟩ : Shape).Idx → α) (r : (⟨2, ![K, N]⟩ : Shape).Idx → α) (p : Fin M) (q : Fin N) :
    ∑ k : D.contr.Idx, l (D.lhsIdx (ix2 p q) k) * r (D.rhsIdx (ix2 p q) k) = ∑ k : Fin K, l (ix2 p k) * r (ix2 k q) := by
  rw [← Equiv.sum_comp (contrEquiv1 D K (contr_rank h) (contr_size h)).symm]
  refine Finset.sum_congr rfl fun k _ => ?_
  have hk := contrEquiv1_symm_val D K (contr_rank h) (contr_size h) k
  have el : D.lhsIdx (ix2 p q) ((contrEquiv1 D K (contr_rank h) (contr_size h)).symm k) = ix2 p k :=
    funext fun a => Fin.ext (by
      match a with
      | ⟨0, _⟩ => exact lhs_row h _ _
      | ⟨1, _⟩ => exact (lhs_col h _ _).trans hk)
  have er : D.rhsIdx (ix2 p q) ((contrEquiv1 D K (contr_rank h) (contr_size h)).symm k) = ix2 k q :=
    funext fun a => Fin.ext (by
      match a with
      | ⟨0, _⟩ => exact (rhs_row h _ _).trans hk
      | ⟨1, _⟩ => exact rhs_col h _ _)
  rw [el, er]

/-- The matrix unit into the zero accumulator, on the extended reals, at (p, q). -/
theorem matmul_zero_apply {φ₁ φ₂ : FTy} (h : IsPlain D) (prec : Option ContractPrecision)
    (l : FVec Ideal ⟨2, ![M, K]⟩ φ₁) (r : FVec Ideal ⟨2, ![K, N]⟩ φ₂) (p : Fin M) (q : Fin N) :
    FloatOps.matmul D prec l r (constant ⟨2, ![M, N]⟩ .f32 0x00000000#32) (ix2 p q) = ∑ k : Fin K, l (ix2 p k) * r (ix2 k q) :=
  (Ideal.matmul_constant_zero_apply D prec l r (ix2 p q)).trans (sum_contr h l r p q)

/-- The host's dot product, on the extended reals, at (p, q). -/
theorem dotGeneral_apply {φ₁ φ₂ : FTy} (h : IsPlain D) (prec : Option ContractPrecision) (sched : HostSchedule)
    (l : FVec Ideal ⟨2, ![M, K]⟩ φ₁) (r : FVec Ideal ⟨2, ![K, N]⟩ φ₂) (p : Fin M) (q : Fin N) :
    FloatOps.dotGeneral D prec sched l r (ix2 p q) = ∑ k : Fin K, l (ix2 p k) * r (ix2 k q) :=
  (Ideal.dotGeneral_apply D prec sched l r (ix2 p q)).trans (sum_contr h l r p q)

/-- The transpose of an [a, b] array at (p, q) is the array at (q, p). -/
theorem transpose_apply2 {α : Type} {a b : Nat} (x : (⟨2, ![a, b]⟩ : Shape).Idx → α)
    (h : (⟨2, ![a, b]⟩ : Shape).Transposes [1, 0] ⟨2, ![b, a]⟩) (p : Fin b) (q : Fin a) :
    transpose ⟨2, ![b, a]⟩ [1, 0] x h (ix2 p q) = x (ix2 q p) :=
  transpose_apply [1, 0] x h (ix2 p q) (ix2 q p) (fun c => match c with
    | ⟨0, _⟩ => rfl
    | ⟨1, _⟩ => rfl)

end Idealize.ShloMosaic.PlainDot

end
-- ==== Proof.LibLeadAxis.lean ====
/-
  A leading unit axis, and two leading axes merged into one, read at an index:

  * `dropLead_apply` / `addLead_apply`: a [1, a, b] block viewed as [a, b], and back, keeps the entry at (p, q);
  * `mergeLead_apply` / `splitLead_apply`: an [n0, n1, a, b] array viewed as [n0 * n1, a, b] reads, at
    (g * n1 + h, p, q), the entry (g, h, p, q); and the view back reads (g, h, p, q) at (g * n1 + h, p, q).
  All four are shape casts, which keep the row-major position.
-/
import Idealize.ShloMosaic.Lib.Pipeline.Value
import Idealize.ShloMosaic.Lib.ValueIdx

namespace Cert.LibLeadAxis

open Idealize.ShloMosaic Idealize.ShloMosaic.ValueIdx

/-- A [1, a, b] block viewed as an [a, b] matrix reads, at (p, q), the block at (0, p, q). -/
theorem dropLead_apply {α : Type} {a b : ℕ} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 (0 : Fin 1) p q) :=
  shapeCast_apply x h _ _ (by
    rw [Shape.rowMajor_val_three, Shape.rowMajor_val_two]
    show (0 * a + p.val) * b + q.val = p.val * b + q.val
    rw [Nat.zero_mul, Nat.zero_add])

/-- An [a, b] matrix viewed as a [1, a, b] block reads, at (0, p, q), the matrix at (p, q). -/
theorem addLead_apply {α : Type} {a b : ℕ} (x : (⟨2, ![a, b]⟩ : Shape).Idx → α)
    (h : (⟨2, ![a, b]⟩ : Shape).ShapeCasts ⟨3, ![1, a, b]⟩) (p : Fin a) (q : Fin b) :
    shapeCast ⟨3, ![1, a, b]⟩ x h (ix3 (0 : Fin 1) p q) = x (ix2 p q) :=
  shapeCast_apply x h _ _ (by
    rw [Shape.rowMajor_val_three, Shape.rowMajor_val_two]
    show p.val * b + q.val = (0 * a + p.val) * b + q.val
    rw [Nat.zero_mul, Nat.zero_add])

/-- An [n0, n1, a, b] array viewed as [n, a, b] (n = n0 * n1) reads, at (g * n1 + h, p, q), the entry (g, h, p, q). -/
theorem mergeLead_apply {α : Type} {n0 n1 n a b : ℕ} (x : (⟨4, ![n0, n1, a, b]⟩ : Shape).Idx → α)
    (hc : (⟨4, ![n0, n1, a, b]⟩ : Shape).ShapeCasts ⟨3, ![n, a, b]⟩) (g : Fin n0) (h : Fin n1) (gh : Fin n)
    (hgh : gh.val = g.val * n1 + h.val) (p : Fin a) (q : Fin b) :
    shapeCast ⟨3, ![n, a, b]⟩ x hc (ix3 gh p q) = x (ix4 g h p q) :=
  shapeCast_apply x hc _ _ (by
    rw [Shape.rowMajor_val_three, Shape.rowMajor_val_four]
    show ((g.val * n1 + h.val) * a + p.val) * b + q.val = (gh.val * a + p.val) * b + q.val
    rw [hgh])

/-- An [n, a, b] array viewed as [n0, n1, a, b] (n = n0 * n1) reads, at (g, h, p, q), the entry (g * n1 + h, p, q). -/
theorem splitLead_apply {α : Type} {n0 n1 n a b : ℕ} (x : (⟨3, ![n, a, b]⟩ : Shape).Idx → α)
    (hc : (⟨3, ![n, a, b]⟩ : Shape).ShapeCasts ⟨4, ![n0, n1, a, b]⟩) (g : Fin n0) (h : Fin n1) (gh : Fin n)
    (hgh : gh.val = g.val * n1 + h.val) (p : Fin a) (q : Fin b) :
    shapeCast ⟨4, ![n0, n1, a, b]⟩ x hc (ix4 g h p q) = x (ix3 gh p q) :=
  shapeCast_apply x hc _ _ (by
    rw [Shape.rowMajor_val_three, Shape.rowMajor_val_four]
    show (gh.val * a + p.val) * b + q.val = ((g.val * n1 + h.val) * a + p.val) * b + q.val
    rw [hgh])

end Cert.LibLeadAxis
-- ==== Proof.Payload.lean ====
/-
  What one grid point computes, read at an entry.

  A grid point holds a [512, 1024] block of tokens, a [1024, 1024] tile of the gate weights and of the up weights
  (model axis by hidden tile) and a [1024, 1024] tile of the down weights (hidden tile by model axis), each with a
  leading unit axis. From them it forms, for token p and hidden unit j of the tile,
      g(p,j) = Σ_k x(p,k) · wg(k,j)      u(p,j) = Σ_k x(p,k) · wu(k,j)      a(p,j) = (g · σ(g)) · u
  and adds  Σ_j a(p,j) · wd(j,q)  to the accumulator at (p, q). Narrowing a float format is the identity on the
  extended reals, a matrix product into the zero accumulator is the plain sum of products, and the logistic function
  is 1 / (1 + exp(−g)).
-/
import proofs.«149740_j4492535791706_1_alg».proof.Proof.Gen.KernelIdeal.Skeleton
import proofs.«149740_j4492535791706_1_alg».proof.Proof.Spec
import proofs.«149740_j4492535791706_1_alg».proof.Proof.LibPlainDot
import proofs.«149740_j4492535791706_1_alg».proof.Proof.LibLeadAxis

noncomputable section

open scoped BigOperators

namespace Cert.KernelIdeal.Pay

open Cert.KernelIdeal Cert.KernelIdeal.Gen Idealize.ShloMosaic Idealize.ShloMosaic.ValueIdx Idealize.ShloMosaic.TcCoe

/-- The three products of the body contract the left operand's columns against the right operand's rows. -/
theorem plain : PlainDot.IsPlain dot_S512x1024_S1024x1024_S512x1024_1_0_0_1_n_n := ⟨rfl, rfl, rfl, rfl, rfl, rfl⟩

/-- A first-layer product of the point's token block with a weight tile, at (p, j). -/
def blockProj (x0 : FVec Ideal S1x512x1024 .bf16) (w : FVec Ideal S1x1024x1024 .bf16) (p : Fin 512) (j : Fin 1024) : EReal :=
  ∑ k : Fin 1024, x0 (ix3 (0 : Fin 1) p k) * w (ix3 (0 : Fin 1) k j)

/-- What the point adds to the accumulator at (p, q). -/
def addend (x0 : FVec Ideal S1x512x1024 .bf16) (x1 x2 x3 : FVec Ideal S1x1024x1024 .bf16) (p : Fin 512) (q : Fin 1024) : EReal :=
  ∑ j : Fin 1024, GatedMlp.act (blockProj x0 x1 p j) (blockProj x0 x2 p j) * x3 (ix3 (0 : Fin 1) j q)

/-- The token block without its unit axis. -/
theorem tok_apply (x : FVec Ideal S1x512x1024 .bf16) (a : Fin 512) (b : Fin 1024) :
    shapeCast S512x1024 x shapeCasts_S1x512x1024_S512x1024 (ix2 a b) = x (ix3 (0 : Fin 1) a b) :=
  Cert.LibLeadAxis.dropLead_apply x _ a b

/-- A weight tile without its unit axis. -/
theorem wt_apply (x : FVec Ideal S1x1024x1024 .bf16) (a b : Fin 1024) :
    shapeCast S1024x1024 x shapeCasts_S1x1024x1024_S1024x1024 (ix2 a b) = x (ix3 (0 : Fin 1) a b) :=
  Cert.LibLeadAxis.dropLead_apply x _ a b

/-- A first-layer matrix product of the body at (p, j). -/
theorem firstLayer_apply (x0 : FVec Ideal S1x512x1024 .bf16) (w : FVec Ideal S1x1024x1024 .bf16) (p : Fin 512) (j : Fin 1024) :
    matmul dot_S512x1024_S1024x1024_S512x1024_1_0_0_1_n_n none
        (shapeCast S512x1024 x0 shapeCasts_S1x512x1024_S512x1024) (shapeCast S1024x1024 w shapeCasts_S1x1024x1024_S1024x1024)
        (constant S512x1024 .f32 0x00000000#32) (ix2 p j)
      = blockProj x0 w p j := by
  refine (PlainDot.matmul_zero_apply plain none _ _ p j).trans ?_
  unfold blockProj
  refine Finset.sum_congr rfl fun k _ => ?_
  rw [tok_apply, wt_apply]

/-- The accumulating store's value at (p, q): the accumulator there plus the point's addend. -/
theorem pay2_apply (x0 : FVec Ideal S1x512x1024 .bf16) (x1 x2 x3 : FVec Ideal S1x1024x1024 .bf16)
    (acc : FVec Ideal S512x1024 .f32) (p : Fin 512) (q : Fin 1024) :
    k0_pay2 (F := Ideal) x0 x1 x2 x3 acc (ix2 p q) = acc (ix2 p q) + addend x0 x1 x2 x3 p q := by
  unfold k0_pay2
  simp only [shapeCast_self]
  show acc (ix2 p q) + matmul dot_S512x1024_S1024x1024_S512x1024_1_0_0_1_n_n none _ _ _ (ix2 p q) = _
  congr 1
  refine (PlainDot.matmul_zero_apply plain none _ _ p q).trans ?_
  unfold addend
  refine Finset.sum_congr rfl fun j _ => ?_
  rw [wt_apply]
  congr 1
  simp only [truncf, mulf, logistic, Ideal.truncf_def, Ideal.mulf_def, Ideal.logistic_def]
  rw [firstLayer_apply, firstLayer_apply]
  rfl

/-- The reset store's value: zero everywhere. -/
theorem pay1_apply (i : S512x1024.Idx) : k0_pay1 (F := Ideal) i = 0 := by
  unfold k0_pay1
  simp only [shapeCast_self]
  exact Ideal.ofBits_zero_f32

/-- The output store's value: the accumulator with a leading unit axis. -/
theorem pay3_apply (v : FVec Ideal S512x1024 .f32) (p : Fin 512) (q : Fin 1024) :
    k0_pay3 (F := Ideal) v (ix3 (0 : Fin 1) p q) = v (ix2 p q) := by
  unfold k0_pay3
  exact Cert.LibLeadAxis.addLead_apply v _ p q

end Cert.KernelIdeal.Pay

end
-- ==== Proof.Blocks.lean ====
/-
  Where each grid point's blocks sit in the arrays.

  The grid has 8 · 8 · 4 points: point t works for expert t / 32 on token tile (t / 4) % 8 and hidden tile t % 4.
  Its token block is rows 512·b … 512·b + 511 of expert e's tokens, its gate and up tiles are columns
  1024·s … 1024·s + 1023 of expert e's gate and up weights, its down tile is rows 1024·s … of expert e's down
  weights, and the output block it belongs to is rows 512·b … of expert e's result. An entry of a block is the
  array's entry at block index × block size + the entry's own coordinate, axis by axis.
-/
import proofs.«149740_j4492535791706_1_alg».proof.Proof.Gen.KernelIdeal.Frame
import proofs.«149740_j4492535791706_1_alg».proof.Proof.Spec
import Idealize.ShloMosaic.Lib.Pipeline.Value
import Idealize.ShloMosaic.Lib.StableHlo.Run

noncomputable section

namespace Cert.KernelIdeal.Blocks

open Cert.KernelIdeal Cert.KernelIdeal.Gen Idealize.ShloMosaic Idealize.ShloMosaic.ValueIdx Idealize.ShloMosaic.TcCoe Idealize.SL.Sem
open Cert.GatedMlp (tileRow tileCol)

variable {F : FTy → Type} [FloatOps F]
variable (m : (ℓ : Loc nD τ sig) → Buf (Elt F) ℓ)

/-- The blocks a point holds, and the arrays they are cut from, at their literal types. -/
abbrev tokBlk (c : Dev nD) (t : Fin cfg0.N) : Vec F S1x512x1024 .bf16 := iblk m c 0 t
abbrev gateBlk (c : Dev nD) (t : Fin cfg0.N) : Vec F S1x1024x1024 .bf16 := iblk m c 1 t
abbrev upBlk (c : Dev nD) (t : Fin cfg0.N) : Vec F S1x1024x1024 .bf16 := iblk m c 2 t
abbrev downBlk (c : Dev nD) (t : Fin cfg0.N) : Vec F S1x1024x1024 .bf16 := iblk m c 3 t
abbrev tokArr (c : Dev nD) : Vec F S8x4096x1024 .bf16 := V m c main_v0
abbrev gateArr (c : Dev nD) : Vec F S8x1024x4096 .bf16 := V m c main_v1
abbrev upArr (c : Dev nD) : Vec F S8x1024x4096 .bf16 := V m c main_v2
abbrev downArr (c : Dev nD) : Vec F S8x4096x1024 .bf16 := V m c main_v3

/-- Which block of each array a point holds: decided once over the 256 points. -/
theorem idx_tok : ∀ t : Fin cfg0.N, win0_0.index t 0 = t.val / 32 ∧ win0_0.index t 1 = t.val / 4 % 8 ∧ win0_0.index t 2 = 0 :=
  (by decide +kernel : ∀ t : Fin grid0.N, _)
theorem idx_gate : ∀ t : Fin cfg0.N, win0_1.index t 0 = t.val / 32 ∧ win0_1.index t 1 = 0 ∧ win0_1.index t 2 = t.val % 4 :=
  (by decide +kernel : ∀ t : Fin grid0.N, _)
theorem idx_up : ∀ t : Fin cfg0.N, win0_2.index t 0 = t.val / 32 ∧ win0_2.index t 1 = 0 ∧ win0_2.index t 2 = t.val % 4 :=
  (by decide +kernel : ∀ t : Fin grid0.N, _)
theorem idx_down : ∀ t : Fin cfg0.N, win0_3.index t 0 = t.val / 32 ∧ win0_3.index t 1 = t.val % 4 ∧ win0_3.index t 2 = 0 :=
  (by decide +kernel : ∀ t : Fin grid0.N, _)
theorem idx_out : ∀ t : Fin cfg0.N, win0_4.index t 0 = t.val / 32 ∧ win0_4.index t 1 = t.val / 4 % 8 ∧ win0_4.index t 2 = 0 :=
  (by decide +kernel : ∀ t : Fin grid0.N, _)

/-- An entry of the token block is the tokens' entry at (e, 512·b + p, k). -/
theorem tokBlk_apply (c : Dev nD) (t : Fin cfg0.N) (e : Fin 8) (he : e.val = t.val / 32) (b : Fin 8) (hb : b.val = t.val / 4 % 8) (p : Fin 512) (k : Fin 1024) :
    tokBlk m c t (ix3 (0 : Fin 1) p k) = tokArr m c (ix3 e (tileRow b p) k) := by
  obtain ⟨h0, h1, h2⟩ := idx_tok t
  show iblk m c 0 t (ix3 (0 : Fin 1) p k) = V m c main_v0 (ix3 e (tileRow b p) k)
  unfold iblk
  rw [View.read_apply]
  show V m c main_v0 _ = V m c main_v0 _
  congr 1
  funext a
  apply Fin.ext
  match a with
  | ⟨0, _⟩ => show win0_0.index t 0 * 1 + 1 * 0 = e.val; rw [h0, he]; omega
  | ⟨1, _⟩ => show win0_0.index t 1 * 512 + 1 * p.val = b.val * 512 + p.val; rw [h1, hb]; omega
  | ⟨2, _⟩ => show win0_0.index t 2 * 1024 + 1 * k.val = k.val; rw [h2]; omega

/-- An entry of the gate tile is the gate weights' entry at (e, k, 1024·s + j). -/
theorem gateBlk_apply (c : Dev nD) (t : Fin cfg0.N) (e : Fin 8) (he : e.val = t.val / 32) (s : Fin 4) (hs : s.val = t.val % 4) (k j : Fin 1024) :
    gateBlk m c t (ix3 (0 : Fin 1) k j) = gateArr m c (ix3 e k (tileCol s j)) := by
  obtain ⟨h0, h1, h2⟩ := idx_gate t
  show iblk m c 1 t (ix3 (0 : Fin 1) k j) = V m c main_v1 (ix3 e k (tileCol s j))
  unfold iblk
  rw [View.read_apply]
  show V m c main_v1 _ = V m c main_v1 _
  congr 1
  funext a
  apply Fin.ext
  match a with
  | ⟨0, _⟩ => show win0_1.index t 0 * 1 + 1 * 0 = e.val; rw [h0, he]; omega
  | ⟨1, _⟩ => show win0_1.index t 1 * 1024 + 1 * k.val = k.val; rw [h1]; omega
  | ⟨2, _⟩ => show win0_1.index t 2 * 1024 + 1 * j.val = s.val * 1024 + j.val; rw [h2, hs]; omega

/-- An entry of the up tile is the up weights' entry at (e, k, 1024·s + j). -/
theorem upBlk_apply (c : Dev nD) (t : Fin cfg0.N) (e : Fin 8) (he : e.val = t.val / 32) (s : Fin 4) (hs : s.val = t.val % 4) (k j : Fin 1024) :
    upBlk m c t (ix3 (0 : Fin 1) k j) = upArr m c (ix3 e k (tileCol s j)) := by
  obtain ⟨h0, h1, h2⟩ := idx_up t
  show iblk m c 2 t (ix3 (0 : Fin 1) k j) = V m c main_v2 (ix3 e k (tileCol s j))
  unfold iblk
  rw [View.read_apply]
  show V m c main_v2 _ = V m c main_v2 _
  congr 1
  funext a
  apply Fin.ext
  match a with
  | ⟨0, _⟩ => show win0_2.index t 0 * 1 + 1 * 0 = e.val; rw [h0, he]; omega
  | ⟨1, _⟩ => show win0_2.index t 1 * 1024 + 1 * k.val = k.val; rw [h1]; omega
  | ⟨2, _⟩ => show win0_2.index t 2 * 1024 + 1 * j.val = s.val * 1024 + j.val; rw [h2, hs]; omega

/-- An entry of the down tile is the down weights' entry at (e, 1024·s + j, q). -/
theorem downBlk_apply (c : Dev nD) (t : Fin cfg0.N) (e : Fin 8) (he : e.val = t.val / 32) (s : Fin 4) (hs : s.val = t.val % 4) (j q : Fin 1024) :
    downBlk m c t (ix3 (0 : Fin 1) j q) = downArr m c (ix3 e (tileCol s j) q) := by
  obtain ⟨h0, h1, h2⟩ := idx_down t
  show iblk m c 3 t (ix3 (0 : Fin 1) j q) = V m c main_v3 (ix3 e (tileCol s j) q)
  unfold iblk
  rw [View.read_apply]
  show V m c main_v3 _ = V m c main_v3 _
  congr 1
  funext a
  apply Fin.ext
  match a with
  | ⟨0, _⟩ => show win0_3.index t 0 * 1 + 1 * 0 = e.val; rw [h0, he]; omega
  | ⟨1, _⟩ => show win0_3.index t 1 * 1024 + 1 * j.val = s.val * 1024 + j.val; rw [h1, hs]; omega
  | ⟨2, _⟩ => show win0_3.index t 2 * 1024 + 1 * q.val = q.val; rw [h2]; omega

end Cert.KernelIdeal.Blocks

end
-- ==== Proof.Fold.lean ====
/-
  The accumulator across the hidden tiles of one output block.

  Along the innermost grid axis the accumulator is cleared at the first tile and receives one addend per tile. So
  after the tile at offset j of a run of four consecutive points starting at a multiple of four it holds
      0 + Σ_{s ≤ j} (addend of the run's point s),
  entry by entry; addition of extended reals is commutative and associative, and that is all the fold uses. At the
  last tile the output block is the accumulator with a leading unit axis.
-/
import proofs.«149740_j4492535791706_1_alg».proof.Proof.Gen.KernelIdeal.Value
import proofs.«149740_j4492535791706_1_alg».proof.Proof.Pieces
import proofs.«149740_j4492535791706_1_alg».proof.Proof.Payload
import proofs.«149740_j4492535791706_1_alg».proof.Proof.Blocks

noncomputable section

open scoped BigOperators

namespace Cert.KernelIdeal.Fold

open Cert.KernelIdeal Cert.KernelIdeal.Gen Idealize.ShloMosaic Idealize.ShloMosaic.ValueIdx Idealize.ShloMosaic.TcCoe Idealize.SL.Sem
open Cert.KernelIdeal.Blocks Cert.KernelIdeal.Pay

variable (m : (ℓ : Loc nD τ sig) → Buf (Elt Ideal) ℓ)

/-- The addend of grid point n at an entry of the accumulator (nothing past the grid). -/
def pointAdd (c : Dev nD) (n : Nat) (i : S512x1024.Idx) : EReal :=
  if h : n < cfg0.N then addend (tokBlk m c ⟨n, h⟩) (gateBlk m c ⟨n, h⟩) (upBlk m c ⟨n, h⟩) (downBlk m c ⟨n, h⟩) (i 0) (i 1) else 0

/-- The accumulating store's value at any entry. -/
theorem pay2_at (x0 : FVec Ideal S1x512x1024 .bf16) (x1 x2 x3 : FVec Ideal S1x1024x1024 .bf16)
    (acc : FVec Ideal S512x1024 .f32) (i : S512x1024.Idx) :
    k0_pay2 (F := Ideal) x0 x1 x2 x3 acc i = acc i + addend x0 x1 x2 x3 (i 0) (i 1) := by
  obtain ⟨p, q, rfl⟩ : ∃ (p : Fin 512) (q : Fin 1024), i = ix2 p q := ⟨i 0, i 1, eq_ix2 i⟩
  exact pay2_apply x0 x1 x2 x3 acc p q

/-- At the first tile of a run the accumulator ends at zero plus that point's addend, whatever it held. -/
theorem reset_apply (c : Dev nD) (n : Nat) (h : n < cfg0.N) (h0 : n % 4 = 0) (old : Vec Ideal S512x1024 .f32)
    (i : S512x1024.Idx) : Value.scAt0_0 m c n h old i = 0 + pointAdd m c n i := by
  have h1 : ¬n % 4 = 3 := by omega
  unfold Value.scAt0_0
  rw [dif_pos h0, dif_neg h1]
  refine (congrFun (Pieces.scratch_first (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) ((hcond0_0 (⟨n, h⟩ : Fin cfg0.N)).mpr h0) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N))) i).trans ?_
  refine (pay2_at (tokBlk m c (⟨n, h⟩ : Fin cfg0.N)) (gateBlk m c (⟨n, h⟩ : Fin cfg0.N)) (upBlk m c (⟨n, h⟩ : Fin cfg0.N)) (downBlk m c (⟨n, h⟩ : Fin cfg0.N)) k0_pay1 i).trans ?_
  rw [pay1_apply]
  unfold pointAdd
  rw [dif_pos h]

/-- At every other tile the point's addend goes on top of what the accumulator held. -/
theorem step_apply (c : Dev nD) (n : Nat) (h : n < cfg0.N) (h0 : ¬n % 4 = 0) (acc : Vec Ideal S512x1024 .f32)
    (i : S512x1024.Idx) : Value.scAt0_0 m c n h acc i = acc i + pointAdd m c n i := by
  unfold Value.scAt0_0
  rw [dif_neg h0]
  by_cases h1 : n % 4 = 3
  · rw [dif_pos h1]
    refine (congrFun (Pieces.scratch_last (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) ((hcond0_1 (⟨n, h⟩ : Fin cfg0.N)).mpr h1) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) i).trans ?_
    refine (pay2_at (tokBlk m c (⟨n, h⟩ : Fin cfg0.N)) (gateBlk m c (⟨n, h⟩ : Fin cfg0.N)) (upBlk m c (⟨n, h⟩ : Fin cfg0.N)) (downBlk m c (⟨n, h⟩ : Fin cfg0.N)) acc i).trans ?_
    unfold pointAdd
    rw [dif_pos h]
  · rw [dif_neg h1]
    refine (congrFun (Pieces.scratch_middle (F := Ideal) c (grid0.coords (⟨n, h⟩ : Fin cfg0.N)) (ms0_0 (⟨n, h⟩ : Fin cfg0.N)) (hs0_0 (⟨n, h⟩ : Fin cfg0.N)) (ms0_1 (⟨n, h⟩ : Fin cfg0.N)) (hs0_1 (⟨n, h⟩ : Fin cfg0.N)) (ms0_2 (⟨n, h⟩ : Fin cfg0.N)) (hs0_2 (⟨n, h⟩ : Fin cfg0.N)) (ms0_3 (⟨n, h⟩ : Fin cfg0.N)) (hs0_3 (⟨n, h⟩ : Fin cfg0.N)) (ms0_4 (⟨n, h⟩ : Fin cfg0.N)) (hs0_4 (⟨n, h⟩ : Fin cfg0.N)) scM0_0 (Memref.isWhole_whole _) (fun hh => h0 ((hcond0_0 (⟨n, h⟩ : Fin cfg0.N)).mp hh)) (fun hh => h1 ((hcond0_1 (⟨n, h⟩ : Fin cfg0.N)).mp hh)) (iblk m c 0 (⟨n, h⟩ : Fin cfg0.N)) (iblk m c 1 (⟨n, h⟩ : Fin cfg0.N)) (iblk m c 2 (⟨n, h⟩ : Fin cfg0.N)) (iblk m c 3 (⟨n, h⟩ : Fin cfg0.N)) acc) i).trans ?_
    refine (pay2_at (tokBlk m c (⟨n, h⟩ : Fin cfg0.N)) (gateBlk m c (⟨n, h⟩ : Fin cfg0.N)) (upBlk m c (⟨n, h⟩ : Fin cfg0.N)) (downBlk m c (⟨n, h⟩ : Fin cfg0.N)) acc i).trans ?_
    unfold pointAdd
    rw [dif_pos h]

/-- The accumulator after point t: zero plus the addends of its run's points up to t. -/
theorem scratch_eq (c : Dev nD) (t : Fin cfg0.N) (i : S512x1024.Idx) :
    (outsAt0 m c t.val t.isLt).2 i = 0 + ∑ s ∈ Finset.range (t.val % 4 + 1), pointAdd m c (4 * (t.val / 4) + s) i := by
  refine (congrFun (Value.soutsAt0_0_eq m c t) i).trans ?_
  exact Pipeline.accAt_add_apply (fun n h => Value.scAt0_0 m c n h (VS0_0.read (Elt Ideal) VS0_0.junk)) (Value.scAt0_0 m c)
    (fun _ => (0 : EReal)) (pointAdd m c) (4 * (t.val / 4)) 3
    (fun h i => reset_apply m c _ h (by omega) _ i)
    (fun n h acc i hb hn => step_apply m c n h (by omega) acc i)
    (t.val % 4) (by omega) _ i

/-- At a last tile the output block is the accumulator with a leading unit axis. -/
theorem out_eq_scratch (c : Dev nD) (t : Fin cfg0.N) (h0 : ¬t.val % 4 = 0) (h3 : t.val % 4 = 3) :
    (outsAt0 m c t.val t.isLt).1 = k0_pay3 (outsAt0 m c t.val t.isLt).2 := by
  rw [outsAt0_C m c t h0 h3]
  dsimp only
  exact (Pieces.out_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t)
      (outsAt0 m c (t.val - 1) (Nat.lt_of_le_of_lt (Nat.sub_le _ _) t.isLt)).2).trans
    (congrArg k0_pay3 (Pieces.scratch_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (fun hh => h0 ((hcond0_0 t).mp hh)) ((hcond0_1 t).mpr h3) (iblk m c 0 t) (iblk m c 1 t) (iblk m c 2 t) (iblk m c 3 t)
      (outsAt0 m c (t.val - 1) (Nat.lt_of_le_of_lt (Nat.sub_le _ _) t.isLt)).2).symm)

end Cert.KernelIdeal.Fold

end
-- ==== Proof.Result.lean ====
/-
  The kernel's result array is the specification.

  The arrays the grid reads are the four arguments (narrowing a float format is the identity on the extended reals).
  Point t = 32·e + 4·b + s reads rows 512·b … of expert e's tokens and hidden tile s of its weights, so its addend at
  (p, q) is the contribution of tile s to out(e, 512·b + p, q). The accumulator after the last tile of a run is the sum
  of the four tiles' contributions, which is out(e, 512·b + p, q); that point writes it to block (e, b) of the result,
  and those blocks cover the result array.
-/
import proofs.«149740_j4492535791706_1_alg».proof.Proof.Fold

noncomputable section

open scoped BigOperators

namespace Cert.KernelIdeal.Result

open Cert.KernelIdeal Cert.KernelIdeal.Gen Idealize.ShloMosaic Idealize.ShloMosaic.ValueIdx Idealize.ShloMosaic.TcCoe Idealize.SL.Sem
open Idealize.ShloMosaic.StableHlo
open Idealize.ShloMosaic.Pipeline (Dat)
open Cert.KernelIdeal.Blocks Cert.KernelIdeal.Pay Cert.KernelIdeal.Fold Cert.GatedMlp

variable (m : (ℓ : Loc nD τ sig) → Buf (Elt Ideal) ℓ) (ρ : Dev nD → PrngReg)

/-- The four arguments as the specification takes them. -/
abbrev X (c : Dev nD) : STok.Idx → EReal := m ((c : Thread nD τ).loc main_arg0)
abbrev Wg (c : Dev nD) : SWt.Idx → EReal := m ((c : Thread nD τ).loc main_arg1)
abbrev Wu (c : Dev nD) : SWt.Idx → EReal := m ((c : Thread nD τ).loc main_arg2)
abbrev Wd (c : Dev nD) : STok.Idx → EReal := m ((c : Thread nD τ).loc main_arg3)

/-- The arrays the grid reads are the arguments. -/
theorem tokArr_eq (c : Dev nD) : (tokArr m c : S8x4096x1024.Idx → EReal) = X m c := by
  show (V m c main_v0 : S8x4096x1024.Idx → EReal) = _
  dsimp only [V, hostOps0]; after_results; rfl
theorem gateArr_eq (c : Dev nD) : (gateArr m c : S8x1024x4096.Idx → EReal) = Wg m c := by
  show (V m c main_v1 : S8x1024x4096.Idx → EReal) = _
  dsimp only [V, hostOps0]; after_results; rfl
theorem upArr_eq (c : Dev nD) : (upArr m c : S8x1024x4096.Idx → EReal) = Wu m c := by
  show (V m c main_v2 : S8x1024x4096.Idx → EReal) = _
  dsimp only [V, hostOps0]; after_results; rfl
theorem downArr_eq (c : Dev nD) : (downArr m c : S8x4096x1024.Idx → EReal) = Wd m c := by
  show (V m c main_v3 : S8x4096x1024.Idx → EReal) = _
  dsimp only [V, hostOps0]; after_results; rfl

section point
variable (c : Dev nD) (t : Fin cfg0.N) (e b : Fin 8) (s : Fin 4)
  (he : e.val = t.val / 32) (hb : b.val = t.val / 4 % 8) (hs : s.val = t.val % 4)
include he hb hs

/-- A point's gate product is the specification's at its rows and its tile's columns. -/
theorem blockProj_gate (p : Fin 512) (j : Fin 1024) :
    blockProj (tokBlk m c t) (gateBlk m c t) p j = proj (X m c) (Wg m c) e (tileRow b p) (tileCol s j) := by
  unfold blockProj proj
  refine Finset.sum_congr rfl fun k _ => ?_
  rw [tokBlk_apply m c t e he b hb p k, gateBlk_apply m c t e he s hs k j, tokArr_eq, gateArr_eq]

/-- Likewise its up product. -/
theorem blockProj_up (p : Fin 512) (j : Fin 1024) :
    blockProj (tokBlk m c t) (upBlk m c t) p j = proj (X m c) (Wu m c) e (tileRow b p) (tileCol s j) := by
  unfold blockProj proj
  refine Finset.sum_congr rfl fun k _ => ?_
  rw [tokBlk_apply m c t e he b hb p k, upBlk_apply m c t e he s hs k j, tokArr_eq, upArr_eq]

/-- A point's addend at (p, q) is its tile's contribution to out(e, 512·b + p, q). -/
theorem addend_eq (p : Fin 512) (q : Fin 1024) :
    addend (tokBlk m c t) (gateBlk m c t) (upBlk m c t) (downBlk m c t) p q
      = partialOut (X m c) (Wg m c) (Wu m c) (Wd m c) e (tileRow b p) q (tileCol s) := by
  unfold addend partialOut GatedMlp.hidden
  refine Finset.sum_congr rfl fun j _ => ?_
  rw [blockProj_gate m c t e b s he hb hs p j, blockProj_up m c t e b s he hb hs p j, downBlk_apply m c t e he s hs j q, downArr_eq]

end point

/-- The same, for a point given by its number. -/
theorem pointAdd_eq (c : Dev nD) (n : Nat) (h : n < cfg0.N) (e b : Fin 8) (s : Fin 4)
    (he : e.val = n / 32) (hb : b.val = n / 4 % 8) (hs : s.val = n % 4) (p : Fin 512) (q : Fin 1024) :
    pointAdd m c n (ix2 p q) = partialOut (X m c) (Wg m c) (Wu m c) (Wd m c) e (tileRow b p) q (tileCol s) := by
  unfold pointAdd
  rw [dif_pos h]
  exact addend_eq m c ⟨n, h⟩ e b s he hb hs p q

/-- After the last tile of the run for block (e, b), the accumulator at (p, q) is out(e, 512·b + p, q). -/
theorem scratch_last_eq (c : Dev nD) (t : Fin cfg0.N) (h3 : t.val % 4 = 3) (e b : Fin 8)
    (he : e.val = t.val / 32) (hb : b.val = t.val / 4 % 8) (p : Fin 512) (q : Fin 1024) :
    (outsAt0 m c t.val t.isLt).2 (ix2 p q) = result (X m c) (Wg m c) (Wu m c) (Wd m c) (ix3 e (tileRow b p) q) := by
  have hN : t.val < 256 := lt_of_lt_of_eq t.isLt (show cfg0.N = 256 from N_0)
  have hsum := scratch_eq m c t (ix2 p q)
  rw [h3] at hsum
  rw [hsum, result_eq_tiles, zero_add, Finset.sum_range]
  refine Finset.sum_congr rfl fun s _ => ?_
  have hs := s.isLt
  exact pointAdd_eq m c (4 * (t.val / 4) + s.val)
    (lt_of_lt_of_eq (by omega : 4 * (t.val / 4) + s.val < 256) (show 256 = cfg0.N from N_0.symm)) e b s (by omega) (by omega) (by omega) p q

/-- What a writing point writes back is its block of the specification. -/
theorem flushed_eq (c : Dev nD) (t : Fin cfg0.N) (hf : (cfg0.win 4).flush t = true) :
    (dats m 0 c).flushed 4 t
      = ((cfg0.win 4).blk t).view.read (Elt Ideal) (result (X m c) (Wg m c) (Wu m c) (Wd m c)) := by
  have h3 : t.val % 4 = 3 := (flush0_4 t).mp hf
  have h0 : ¬t.val % 4 = 0 := by omega
  have hN : t.val < 256 := lt_of_lt_of_eq t.isLt (show cfg0.N = 256 from N_0)
  obtain ⟨i0, i1, i2⟩ := idx_out t
  rw [Value.flushed4, out_eq_scratch m c t h0 h3]
  funext j
  have hj0 : (j 0).val < 1 := (j 0).isLt
  have hj1 : (j 1).val < 512 := (j 1).isLt
  have hj2 : (j 2).val < 1024 := (j 2).isLt
  have hL : (cfg0.win 4).cut (grid0.coords t) (k0_pay3 (F := Ideal) (outsAt0 m c t.val t.isLt).2) j
      = k0_pay3 (F := Ideal) (outsAt0 m c t.val t.isLt).2 (ix3 (0 : Fin 1) (⟨(j 1).val, hj1⟩ : Fin 512) (⟨(j 2).val, hj2⟩ : Fin 1024)) := by
    show k0_pay3 (F := Ideal) (outsAt0 m c t.val t.isLt).2 _ = _
    congr 1
    funext a
    apply Fin.ext
    match a with
    | ⟨0, _⟩ => show (j 0).val = 0; omega
    | ⟨1, _⟩ => rfl
    | ⟨2, _⟩ => rfl
  have hR : ((cfg0.win 4).blk t).view.read (Elt Ideal) (result (X m c) (Wg m c) (Wu m c) (Wd m c)) j
      = result (X m c) (Wg m c) (Wu m c) (Wd m c)
          (ix3 (⟨t.val / 32, by omega⟩ : Fin 8) (tileRow (⟨t.val / 4 % 8, by omega⟩ : Fin 8) (⟨(j 1).val, hj1⟩ : Fin 512)) (⟨(j 2).val, hj2⟩ : Fin 1024)) := by
    rw [View.read_apply]
    show result (X m c) (Wg m c) (Wu m c) (Wd m c) _ = result (X m c) (Wg m c) (Wu m c) (Wd m c) _
    congr 1
    funext a
    apply Fin.ext
    match a with
    | ⟨0, _⟩ => show win0_4.index t 0 * 1 + 1 * (j 0).val = t.val / 32; rw [i0]; omega
    | ⟨1, _⟩ => show win0_4.index t 1 * 512 + 1 * (j 1).val = t.val / 4 % 8 * 512 + (j 1).val; rw [i1]; omega
    | ⟨2, _⟩ => show win0_4.index t 2 * 1024 + 1 * (j 2).val = (j 2).val; rw [i2]; omega
  refine hL.trans (Eq.trans ?_ hR.symm)
  rw [pay3_apply]
  exact scratch_last_eq m c t h3 _ _ rfl rfl _ _

/-- Every index of the result array lies in the block of the point that finishes its run. -/
theorem cover (c : Dev nD) (i : S8x4096x1024.Idx) :
    ∃ t : Fin cfg0.N, (cfg0.win 4).flush t = true ∧ i ∈ ((cfg0.win 4).blk t).view.set := by
  have hi0 : (i 0).val < 8 := (i 0).isLt
  have hi1 : (i 1).val < 4096 := (i 1).isLt
  have hi2 : (i 2).val < 1024 := (i 2).isLt
  have hN : cfg0.N = 256 := N_0
  have hlt : (i 0).val * 32 + (i 1).val / 512 * 4 + 3 < cfg0.N := by rw [hN]; omega
  refine ⟨⟨(i 0).val * 32 + (i 1).val / 512 * 4 + 3, hlt⟩, (flush0_4 _).mpr (by show ((i 0).val * 32 + (i 1).val / 512 * 4 + 3) % 4 = 3; omega), ?_⟩
  obtain ⟨i0, i1, i2⟩ := idx_out ⟨(i 0).val * 32 + (i 1).val / 512 * 4 + 3, hlt⟩
  have tv : (⟨(i 0).val * 32 + (i 1).val / 512 * 4 + 3, hlt⟩ : Fin cfg0.N).val = (i 0).val * 32 + (i 1).val / 512 * 4 + 3 := rfl
  rw [tv] at i0 i1
  show i ∈ ((View.whole main_v4).slice (win0_4.rect ⟨(i 0).val * 32 + (i 1).val / 512 * 4 + 3, hlt⟩)).set
  rw [View.set_slice_whole, Rect.mem_set_unit]
  intro a
  match a with
  | ⟨0, _⟩ =>
    show win0_4.index ⟨(i 0).val * 32 + (i 1).val / 512 * 4 + 3, hlt⟩ 0 * 1 ≤ (i 0).val ∧ (i 0).val < win0_4.index ⟨(i 0).val * 32 + (i 1).val / 512 * 4 + 3, hlt⟩ 0 * 1 + 1
    rw [i0]; omega
  | ⟨1, _⟩ =>
    show win0_4.index ⟨(i 0).val * 32 + (i 1).val / 512 * 4 + 3, hlt⟩ 1 * 512 ≤ (i 1).val ∧ (i 1).val < win0_4.index ⟨(i 0).val * 32 + (i 1).val / 512 * 4 + 3, hlt⟩ 1 * 512 + 512
    rw [i1]; omega
  | ⟨2, _⟩ =>
    show win0_4.index ⟨(i 0).val * 32 + (i 1).val / 512 * 4 + 3, hlt⟩ 2 * 1024 ≤ (i 2).val ∧ (i 2).val < win0_4.index ⟨(i 0).val * 32 + (i 1).val / 512 * 4 + 3, hlt⟩ 2 * 1024 + 1024
    rw [i2]; omega

/-- The result array after the run. -/
theorem final (c : Dev nD) : (dats m 0 c).arrAt 4 cfg0.N = result (X m c) (Wg m c) (Wu m c) (Wd m c) :=
  (dats m 0 c).arrAt_eq_of_cover 4 (result (X m c) (Wg m c) (Wu m c) (Wd m c)) (flushed_eq m c) (cover c)

/-- The kernel's run: the result array holds the specification of the arguments, which are unchanged. -/
theorem run : θ_run defs (onTc (τ := τ) (main (F := Ideal))) ⟨m, fun _ => 0, ρ⟩ fun r => ∀ c : Dev nD,
      r.2.mem ((c : Thread nD τ).loc main_v4) = result (X m c) (Wg m c) (Wu m c) (Wd m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Result

end
-- ==== Proof.RefValue.lean ====
/-
  The reference computes the specification.

  Its first two products are the batched products of the tokens with the gate and the up weights; its silu is spelt
  g · (1 / (1 + exp(−g))) with the literal 1.0, which is exactly one, so that factor is the logistic function; it
  multiplies by the up product and contracts the hidden axis against the down weights in one sum over all 4096
  hidden units.
-/
import proofs.«149740_j4492535791706_1_alg».proof.Proof.Gen.ReferenceIdeal.Read
import proofs.«149740_j4492535791706_1_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.ValueIdx Idealize.ShloMosaic.TcCoe
open Cert.GatedMlp

/-- The literal 1.0 is one. -/
theorem one_f32 : Ideal.ofBits .f32 0x3F800000#32 = 1 := by
  simp [Ideal.ofBits, Ideal.ieee, -EReal.coe_mul]; norm_num

/-- 1 / (1 + exp(−g)), in the host's operations with the literal 1.0, is the logistic function. -/
theorem sigmoid_eq (g : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf g)))
      = Ideal.logistic g := by
  rw [Ideal.ofBits_def, one_f32]
  rfl

variable (x0 : (⟨S8x4096x1024, .f32⟩ : BufTy).Contents (Elt Ideal)) (x1 x2 : (⟨S8x1024x4096, .f32⟩ : BufTy).Contents (Elt Ideal))
  (x3 : (⟨S8x4096x1024, .f32⟩ : BufTy).Contents (Elt Ideal))

/-- The gate product at (e, c, i). -/
theorem gate_eq (e : Fin 8) (c i : Fin 4096) : val_main_v0 (F := Ideal) x0 x1 (ix3 e c i) = proj x0 x1 e c i := by
  rw [val_main_v0_apply]
  unfold proj
  refine Finset.sum_congr rfl fun k _ => ?_
  have el : lidx_main_v0 (ix3 e c i) k = ix3 e c k := funext fun a => by
    match a with
    | ⟨0, _⟩ => rfl
    | ⟨1, _⟩ => rfl
    | ⟨2, _⟩ => rfl
  have er : ridx_main_v0 (ix3 e c i) k = ix3 e k i := funext fun a => by
    match a with
    | ⟨0, _⟩ => rfl
    | ⟨1, _⟩ => rfl
    | ⟨2, _⟩ => rfl
  rw [el, er]

/-- The up product at (e, c, i). -/
theorem up_eq (e : Fin 8) (c i : Fin 4096) : val_main_v2 (F := Ideal) x0 x2 (ix3 e c i) = proj x0 x2 e c i := by
  rw [val_main_v2_apply]
  unfold proj
  refine Finset.sum_congr rfl fun k _ => ?_
  have el : lidx_main_v2 (ix3 e c i) k = ix3 e c k := funext fun a => by
    match a with
    | ⟨0, _⟩ => rfl
    | ⟨1, _⟩ => rfl
    | ⟨2, _⟩ => rfl
  have er : ridx_main_v2 (ix3 e c i) k = ix3 e k i := funext fun a => by
    match a with
    | ⟨0, _⟩ => rfl
    | ⟨1, _⟩ => rfl
    | ⟨2, _⟩ => rfl
  rw [el, er]

/-- The hidden layer at (e, c, i): silu of the gate product times the up product. -/
theorem hidden_eq (e : Fin 8) (c i : Fin 4096) :
    val_main_v3 (F := Ideal) x0 x1 x2 (ix3 e c i) = hidden x0 x1 x2 e c i := by
  rw [val_main_v3_apply, val_main_v1_apply, val_main_call0_v5_apply, val_main_call0_v4_apply, val_main_call0_cst_0_apply,
    val_main_call0_v3_apply, val_main_call0_v2_apply, val_main_call0_cst_apply, val_main_call0_v1_apply,
    val_main_call0_v0_apply, sigmoid_eq, gate_eq, up_eq]
  rfl

/-- The reference's result is the specification. -/
theorem result_eq : val_main_v4 (F := Ideal) x0 x1 x2 x3 = result x0 x1 x2 x3 := by
  funext j
  obtain ⟨e, c, h, rfl⟩ : ∃ (e : Fin 8) (c : Fin 4096) (h : Fin 1024), j = ix3 e c h := ⟨j 0, j 1, j 2, eq_ix3 j⟩
  rw [val_main_v4_apply]
  unfold result
  refine Finset.sum_congr rfl fun i _ => ?_
  have el : lidx_main_v4 (ix3 e c h) i = ix3 e c i := funext fun a => by
    match a with
    | ⟨0, _⟩ => rfl
    | ⟨1, _⟩ => rfl
    | ⟨2, _⟩ => rfl
  have er : ridx_main_v4 (ix3 e c h) i = ix3 e i h := funext fun a => by
    match a with
    | ⟨0, _⟩ => rfl
    | ⟨1, _⟩ => rfl
    | ⟨2, _⟩ => rfl
  rw [el, er, hidden_eq]

end Cert.ReferenceIdeal.RefValue

end
-- ==== Proof.Claims.lean ====
/-
  The five claims.

  The three frames are the generated runs. The kernel's idealization rewrote nothing, so that claim is trivial. For
  the equivalence, the kernel's result array ends at the specification of its arguments (the accumulated tiles) and
  the reference's at the specification of its own (one sum over the hidden axis); the arguments agree, so the two
  results are equal entry by entry as extended reals. Finiteness of the inputs is never used: the two sides differ
  only in how one sum is grouped.
-/
import proofs.«149740_j4492535791706_1_alg».proof.Defs
import proofs.«149740_j4492535791706_1_alg».proof.Proof.Gen.Kernel.Frame
import proofs.«149740_j4492535791706_1_alg».proof.Proof.Gen.KernelIdeal.Frame
import proofs.«149740_j4492535791706_1_alg».proof.Proof.Gen.ReferenceIdeal.Run
import proofs.«149740_j4492535791706_1_alg».proof.Proof.Gen.Pre_finite_inputs
import proofs.«149740_j4492535791706_1_alg».proof.Proof.Result
import proofs.«149740_j4492535791706_1_alg».proof.Proof.RefValue

noncomputable section

open Idealize.ShloMosaic Idealize.ShloMosaic.TcCoe Idealize.SL.Sem

namespace Cert.Proof.Claims

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.GatedMlp.result (Cert.KernelIdeal.Result.X m c) (Cert.KernelIdeal.Result.Wg m c)
      (Cert.KernelIdeal.Result.Wu m c) (Cert.KernelIdeal.Result.Wd m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v4_eq (F := Ideal) _ _ _ _).trans ?_
  rw [Cert.ReferenceIdeal.RefValue.result_eq, (hagree c).1, (hagree c).2.1, (hagree c).2.2.1, (hagree c).2.2.2]

end Cert.Proof.Claims

end
-- ==== Proof.lean ====
/-
  A gated two-layer perceptron per expert: the kernel against its reference, over the extended reals.

  Both programs compute  out(e,c,h) = Σ_i silu(x·Wg)(e,c,i) · (x·Wu)(e,c,i) · Wd(e,i,h).  The kernel walks the hidden
  axis in four tiles of 1024 units, adding each tile's contribution into an accumulator that it clears at the first
  tile and writes out after the last; the reference contracts all 4096 hidden units at once. A sum over 4096 terms is
  the sum over four tiles of the sums inside each tile, so the two results agree entry by entry. The modules under
  Proof/ carry the steps: the specification and the tile split (Spec), one grid point's arithmetic read at an entry
  (Payload), what each control case leaves (Pieces), where the blocks sit in the arrays (Blocks), the accumulator as a
  sum of addends (Fold), the kernel's result array (Result), the reference's result (RefValue), the claims (Claims).
-/
import proofs.«149740_j4492535791706_1_alg».proof.Defs
import proofs.«149740_j4492535791706_1_alg».proof.Proof.Gen.Kernel
import proofs.«149740_j4492535791706_1_alg».proof.Proof.Gen.Kernel.Skeleton
import proofs.«149740_j4492535791706_1_alg».proof.Proof.Gen.Kernel.Launch
import proofs.«149740_j4492535791706_1_alg».proof.Proof.Gen.Kernel.Points
import proofs.«149740_j4492535791706_1_alg».proof.Proof.Gen.Kernel.Frame
import proofs.«149740_j4492535791706_1_alg».proof.Proof.Gen.KernelIdeal
import proofs.«149740_j4492535791706_1_alg».proof.Proof.Gen.KernelIdeal.Skeleton
import proofs.«149740_j4492535791706_1_alg».proof.Proof.Gen.KernelIdeal.Launch
import proofs.«149740_j4492535791706_1_alg».proof.Proof.Gen.KernelIdeal.Points
import proofs.«149740_j4492535791706_1_alg».proof.Proof.Gen.KernelIdeal.Frame
import proofs.«149740_j4492535791706_1_alg».proof.Proof.Gen.ReferenceIdeal
import proofs.«149740_j4492535791706_1_alg».proof.Proof.Gen.Pre_finite_inputs
import proofs.«149740_j4492535791706_1_alg».proof.Proof.Gen.KernelIdeal.Value
import proofs.«149740_j4492535791706_1_alg».proof.Proof.Gen.ReferenceIdeal.Run
import proofs.«149740_j4492535791706_1_alg».proof.Proof.Gen.ReferenceIdeal.Read
import proofs.«149740_j4492535791706_1_alg».proof.Proof.Claims
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  Claims.frame_kernel, Claims.frame_kernelIdeal, Claims.frame_referenceIdeal, Claims.preserves, Claims.algebraic⟩

end Cert.Proof

end
